-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S4096x4096 : Shape := ⟨2, ![4096, 4096]⟩
abbrev S4096 : Shape := ⟨1, ![4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S1024x4096 .f32) (main_arg1 : FVec F S4096x4096 .f32) (main_arg2 : FVec F S4096x4096 .f32) (main_arg3 : FVec F S4096 .f32) (main_arg4 : FVec F S4096 .f32) (main_arg5 : FVec F S4096x4096 .f32) (main_arg6 : FVec F S4096 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S1024x4096 : Shape := ⟨2, ![1024, 4096]⟩
abbrev S4096x4096 : Shape := ⟨2, ![4096, 4096]⟩
abbrev S4096 : Shape := ⟨1, ![4096]⟩
abbrev S1x4096 : Shape := ⟨2, ![1, 4096]⟩
abbrev S512x512 : Shape := ⟨2, ![512, 512]⟩
abbrev S1024x512 : Shape := ⟨2, ![1024, 512]⟩
abbrev S1x1024 : Shape := ⟨2, ![1, 1024]⟩
abbrev S512x1024 : Shape := ⟨2, ![512, 1024]⟩

abbrev nBuf : Space → Nat
  | .hbm => 11
  | .vmem => 17
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S1024x4096, .f32⟩
  | .local _ .vmem, ⟨0, _⟩ => ⟨S512x512, .f32⟩
  | .local _ .vmem, ⟨1, _⟩ => ⟨S512x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v20 : BitVec 1 := Scalar.cmpi .eq arg2 c7_i32
  let v21 : BitVec 32 := Scalar.extui v20
  let c0_i32_13 : BitVec 32 := 0#32
  let v22 : BitVec 1 := Scalar.cmpi .ne v21 c0_i32_13
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x512_S1024x512_S512x1024_1_1_0_0_n_n_wf : DotDims.WF S512x512 S1024x512 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S1024x4096.size a
  hwx0_0 : ∀ i : grid0.Coords, EltTy.bits .f32 = 32 ∨ (Rect.block (s := S1024x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .f32 = 32 ∨ (Rect.block (s := S4096x4096) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x4096.size a
  hwx0_3 : ∀ i : grid0.Coords, EltTy.bits .f32 = 32 ∨ (Rect.block (s := S4096x4096) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x4096.size a
  hwx0_6 : ∀ i : grid0.Coords, EltTy.bits .f32 = 32 ∨ (Rect.block (s := S1x4096) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S1024x4096.size a
  hwx0_7 : ∀ i : grid0.Coords, EltTy.bits .f32 = 32 ∨ (Rect.block (s := S1024x4096) S512x1024.size (cc0_transform_7 i) (hinb0_7 i)).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S1024x4096 : Shape := ⟨2, ![1024, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S4096x4096, .f32⟩
  | .hbm, ⟨16, _⟩ => ⟨S4096x4096, .f32⟩
  | .hbm, ⟨17, _⟩ => ⟨S4096, .f32⟩
  | .hbm, ⟨18, _⟩ => ⟨S4096, .f32⟩
  | .hbm, ⟨19, _⟩ => ⟨S1024x4096, .f32⟩
  | .hbm, ⟨20, _⟩ => ⟨S1x4096, .f32⟩
  | .hbm, ⟨21, _⟩ => ⟨S1024x4096, .f32⟩
  | .hbm, ⟨22, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  dot_S1024x4096_S4096x4096_S1024x4096_1_1_0_0_n_n_wf : DotDims.WF S1024x4096 S4096x4096 S1024x4096 [1] [1] [0] [0] [] []

variable [Facts₀]

def dot_S1024x4096_S4096x4096_S1024x4096_1_1_0_0_n_n : DotDims S1024x4096 S4096x4096 S1024x4096 where
  lhsContracting := [1]
  rhsContracting := [1]
  lhsNonContracting := [0]
  rhsNonContracting := [0]
  lhsBatch := []
  rhsBatch := []
  wf := dot_S1024x4096_S4096x4096_S1024x4096_1_1_0_0_n_n_wf

class Facts : Prop extends Facts₀ where

variable [Facts]
-- ==== Proof.Pieces.lean ====
import proofs.«175852_j33492154974381_1_alg».proof.Proof.Gen.KernelIdeal.Frame
import Idealize.ShloMosaic.Lib.Pipeline.Value
import Idealize.ShloMosaic.Lib.Tactic

/-! # What one grid point leaves behind, as the body's own arithmetic

The kernel body keeps a running sum in a scratch block that survives from one grid point to the next. At a point it
(first contraction block only) clears the scratch, then stores `scratch + x_blk · w_blkᵀ` back into the scratch, and
(last contraction block only) stores `scratch + bias` into the output block. Here each of the three cases' contents,
which the frame states as stores read back, is identified with the body's arithmetic applied to the input blocks:

* first block: the scratch ends at the accumulation step applied to the cleared scratch;
* middle blocks: at the accumulation step applied to what the point before left;
* last block: the same for the scratch, and the output block ends at the bias step applied to that new scratch.

Every statement is for any float instance. -/

noncomputable section

open Idealize.ShloMosaic Idealize.ShloMosaic.TcCoe Idealize.SL.Sem

namespace Cert.Mfvi.Kernel

open Cert.KernelIdeal Cert.KernelIdeal.Gen

variable {F : FTy → Type} [FloatOps F]
variable (c : Dev nD) (i : grid0.Coords)
  (arg3 : Memref sig .tc .vmem S512x512 .f32) (harg3 : arg3.IsWhole)
  (arg4 : Memref sig .tc .vmem S1024x512 .f32) (harg4 : arg4.IsWhole)
  (arg5 : Memref sig .tc .vmem S1024x512 .f32) (harg5 : arg5.IsWhole)
  (arg6 : Memref sig .tc .vmem S1024x512 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S512x1024 .f32) (harg10 : arg10.IsWhole)
  (arg11 : Memref sig .tc .vmem S512x1024 .f32) (harg11 : arg11.IsWhole)
  (xb : Vec F S512x512 .f32) (wm ws wn : Vec F S1024x512 .f32) (bm bs bn : Vec F S1x1024 .f32)
  (acc : Vec F S512x1024 .f32)

/-- Every load and store of the body starts at the origin of its buffer. -/
theorem origin : (![0, 0] : Fin 2 → Nat) = fun _ => 0 := funext fun a => by fin_cases a <;> rfl

/-- FIRST CONTRACTION BLOCK. The scratch is cleared and read back, so it ends at the accumulation step applied to the
    cleared block. -/
theorem scratch_first (hc0 : cond0_0 i) (hc1 : ¬cond0_1 i) :
    sout0_A_0 c i arg3 harg3 arg4 harg4 arg5 harg5 arg6 harg6 arg7 harg7 arg8 harg8 arg9 harg9 arg10 harg10 arg11 harg11
        hc0 hc1 xb wm ws wn bm bs bn
      = k0_pay2 ws wm wn xb (k0_pay1 (F := F)) := by
  unfold sout0_A_0
  rw [View.read_writes_eq_canon _ _ _ (scover0_A_0 c i arg3 harg3 arg4 harg4 arg5 harg5 arg6 harg6 arg7 harg7 arg8 harg8
    arg9 harg9 arg10 harg10 arg11 harg11 hc0 hc1 xb wm ws wn bm bs bn)]
  unfold kernelRun0_A
  dsimp only
  sl_unfold_words
  rw [View.canon_cons_unit_zero (S := S512x1024) origin, View.readCov_unit_zero (S := S512x1024) _ origin]
  simp only [View.readAt_eq_ld, harg3.read_unread, harg4.read_unread, harg5.read_unread, harg6.read_unread,
    View.ld_unit_zero (S := S512x512) origin, View.ld_unit_zero (S := S1024x512) origin]

/-- A MIDDLE CONTRACTION BLOCK. The scratch ends at the accumulation step applied to what it held. -/
theorem scratch_middle (hc0 : ¬cond0_0 i) (hc1 : ¬cond0_1 i) :
    sout0_B_0 c i arg3 harg3 arg4 harg4 arg5 harg5 arg6 harg6 arg7 harg7 arg8 harg8 arg9 harg9 arg10 harg10 arg11 harg11
        hc0 hc1 xb wm ws wn bm bs bn acc
      = k0_pay2 ws wm wn xb acc := by
  unfold sout0_B_0
  rw [View.read_writes_eq_canon _ _ _ (scover0_B_0 c i arg3 harg3 arg4 harg4 arg5 harg5 arg6 harg6 arg7 harg7 arg8 harg8
    arg9 harg9 arg10 harg10 arg11 harg11 hc0 hc1 xb wm ws wn bm bs bn acc)]
  unfold kernelRun0_B
  dsimp only
  sl_unfold_words
  rw [View.canon_unit_zero origin]
  simp only [View.readAt_eq_ld, harg3.read_unread, harg4.read_unread, harg5.read_unread, harg6.read_unread,
    harg11.read_unread, View.ld_unit_zero (S := S512x512) origin, View.ld_unit_zero (S := S1024x512) origin,
    View.ld_unit_zero (S := S512x1024) origin]

/-- THE LAST CONTRACTION BLOCK, the scratch: as at a middle block. -/
theorem scratch_last (hc0 : ¬cond0_0 i) (hc1 : cond0_1 i) :
    sout0_C_0 c i arg3 harg3 arg4 harg4 arg5 harg5 arg6 harg6 arg7 harg7 arg8 harg8 arg9 harg9 arg10 harg10 arg11 harg11
        hc0 hc1 xb wm ws wn bm bs bn acc
      = k0_pay2 ws wm wn xb acc := by
  unfold sout0_C_0
  rw [View.read_writes_eq_canon _ _ _ (scover0_C_0 c i arg3 harg3 arg4 harg4 arg5 harg5 arg6 harg6 arg7 harg7 arg8 harg8
    arg9 harg9 arg10 harg10 arg11 harg11 hc0 hc1 xb wm ws wn bm bs bn acc)]
  unfold kernelRun0_C
  dsimp only
  sl_unfold_words
  rw [View.canon_unit_zero origin]
  simp only [View.readAt_eq_ld, harg3.read_unread, harg4.read_unread, harg5.read_unread, harg6.read_unread,
    harg11.read_unread, View.ld_unit_zero (S := S512x512) origin, View.ld_unit_zero (S := S1024x512) origin,
    View.ld_unit_zero (S := S512x1024) origin]

/-- THE LAST CONTRACTION BLOCK, the output block: the bias step applied to the scratch as just updated (the body
    reads the scratch back after its store). -/
theorem output_last (hc0 : ¬cond0_0 i) (hc1 : cond0_1 i) :
    out0_C_7 c i arg3 harg3 arg4 harg4 arg5 harg5 arg6 harg6 arg7 harg7 arg8 harg8 arg9 harg9 arg10 harg10 arg11 harg11
        hc0 hc1 xb wm ws wn bm bs bn acc
      = k0_pay3 bs bm bn (k0_pay2 ws wm wn xb acc) := by
  unfold out0_C_7
  rw [View.read_writes_eq_canon _ _ _ (cover0_C_7 c i arg3 harg3 arg4 harg4 arg5 harg5 arg6 harg6 arg7 harg7 arg8 harg8
    arg9 harg9 arg10 harg10 arg11 harg11 hc0 hc1 xb wm ws wn bm bs bn acc)]
  unfold kernelRun0_C
  dsimp only
  sl_unfold_words
  rw [View.canon_unit_zero origin]
  simp only [View.readAt_eq_ld, harg3.read_unread, harg4.read_unread, harg5.read_unread, harg6.read_unread,
    harg7.read_unread, harg8.read_unread, harg9.read_unread, harg11.read_unread,
    View.readCov_unit_zero (S := S512x1024) _ origin,
    View.ld_unit_zero (S := S512x512) origin, View.ld_unit_zero (S := S1024x512) origin,
    View.ld_unit_zero (S := S1x1024) origin, View.ld_unit_zero (S := S512x1024) origin]

end Cert.Mfvi.Kernel

end
-- ==== Proof.LibSumBlocks.lean ====
import Mathlib.Data.Fintype.BigOperators
import Mathlib.Logic.Equiv.Fin.Basic

/-! # A sum over consecutive blocks

A sum over `A * B` consecutive indices, cut into `A` blocks of `B`: entry `r` of block `t` is index `B * t + r`. -/

namespace Cert.LibSumBlocks

open scoped BigOperators

/-- Entry `r` of block `t`, of `A` blocks of `B` entries each, is below `A * B`. -/
theorem block_lt {A B N : ℕ} (h : A * B = N) (t : Fin A) (r : Fin B) : B * t.val + r.val < N := by
  have h1 : B * (t.val + 1) ≤ B * A := Nat.mul_le_mul_left _ t.isLt
  have h2 : B * (t.val + 1) = B * t.val + B := Nat.mul_succ _ _
  have h3 := r.isLt
  rw [← h, Nat.mul_comm A B]
  omega

/-- THE SUM BY BLOCKS: over `N = A * B` indices, the sum over the `A` blocks of the sum over the `B` entries inside
    each block, entry `r` of block `t` being index `B * t + r`, is the sum over all `N` indices, in any additive
    commutative monoid. -/
theorem sum_blocks {M : Type*} [AddCommMonoid M] {A B N : ℕ} (h : A * B = N) (f : Fin N → M) :
    ∑ t : Fin A, ∑ r : Fin B, f ⟨B * t.val + r.val, block_lt h t r⟩ = ∑ n : Fin N, f n := by
  subst h
  rw [← Fintype.sum_prod_type' (fun (t : Fin A) (r : Fin B) => f ⟨B * t.val + r.val, block_lt rfl t r⟩)]
  refine Fintype.sum_equiv finProdFinEquiv _ _ fun x => ?_
  refine congrArg f (Fin.ext ?_)
  show B * x.1.val + x.2.val = x.2.val + B * x.1.val
  exact Nat.add_comm _ _

end Cert.LibSumBlocks
-- ==== Proof.Spec.lean ====
import Idealize.ShloMosaic.PureOps.Ideal.Laws
import Idealize.ShloMosaic.Lib.ValueIdx
import proofs.«175852_j33492154974381_1_alg».proof.Proof.LibSumBlocks

/-! # A linear layer whose weight and bias are sampled, over the extended reals

The layer computes, for a batch row `b` and an output feature `o`,

  `out b o = (∑ i, x b i · W o i) + β o`,   `W o i = μ o i + ε o i · max (e ^ s o i) floor`,

and `β` likewise from the bias' mean, noise and log-deviation. This module holds the part of that which
is arithmetic only: the sampled parameter, the cut of the 4096 contracted columns into 8 blocks of 512, and the fact
that adding the blocks' partial dot products one after the other is the whole dot product. Addition of extended
reals is commutative and associative without any finiteness, which is all that is used. -/

noncomputable section

namespace Cert.Mfvi

open scoped BigOperators
open Idealize.ShloMosaic Idealize.ShloMosaic.ValueIdx

/-- The floor of the deviation: the extended real that the f32 word of `1e-5` denotes. Both programs carry the
    same word, so its value is never needed. -/
abbrev stdFloor : EReal := Ideal.ofBits .f32 0x3727C5AC#32

/-- A sampled parameter: `mean + noise · max (e ^ logstd) floor`. -/
def sampled (mean noise logstd : EReal) : EReal := mean + noise * max (Ideal.exp logstd) stdFloor

/-- Column `r` of contraction block `k`: column `512 · k + r` (for `k < 8`; reduced into range otherwise, so
    that the function is total). -/
def inCol (k : ℕ) (r : Fin 512) : Fin 4096 := ⟨(512 * k + r.val) % 4096, Nat.mod_lt _ (by norm_num)⟩

/-- Row `p` of batch block `I`: row `512 · I + p` (for `I < 2`). -/
def outRow (I : ℕ) (p : Fin 512) : Fin 1024 := ⟨(512 * I + p.val) % 1024, Nat.mod_lt _ (by norm_num)⟩

/-- Column `q` of feature block `J`: feature `1024 · J + q` (for `J < 4`). -/
def outCol (J : ℕ) (q : Fin 1024) : Fin 4096 := ⟨(1024 * J + q.val) % 4096, Nat.mod_lt _ (by norm_num)⟩

theorem inCol_val {k : ℕ} (hk : k < 8) (r : Fin 512) : (inCol k r).val = 512 * k + r.val :=
  Nat.mod_eq_of_lt (by have := r.isLt; omega)

theorem outRow_val {I : ℕ} (hI : I < 2) (p : Fin 512) : (outRow I p).val = 512 * I + p.val :=
  Nat.mod_eq_of_lt (by have := p.isLt; omega)

theorem outCol_val {J : ℕ} (hJ : J < 4) (q : Fin 1024) : (outCol J q).val = 1024 * J + q.val :=
  Nat.mod_eq_of_lt (by have := q.isLt; omega)

/-- Contraction block `k`'s share of the dot product of row `b` of `X` with row `o` of `Wt`. -/
def blockDot (X : Fin 1024 → Fin 4096 → EReal) (Wt : Fin 4096 → Fin 4096 → EReal) (b : Fin 1024) (o : Fin 4096)
    (k : ℕ) : EReal :=
  ∑ r : Fin 512, X b (inCol k r) * Wt o (inCol k r)

/-- The eight blocks' shares add up to the whole dot product: the 4096 columns are the 8 blocks of 512. -/
theorem sum_blockDot (X : Fin 1024 → Fin 4096 → EReal) (Wt : Fin 4096 → Fin 4096 → EReal) (b : Fin 1024)
    (o : Fin 4096) :
    ∑ k ∈ Finset.range 8, blockDot X Wt b o k = ∑ i : Fin 4096, X b i * Wt o i := by
  rw [← Fin.sum_univ_eq_sum_range (fun k => blockDot X Wt b o k) 8,
    ← Cert.LibSumBlocks.sum_blocks (A := 8) (B := 512) (N := 4096) rfl (fun i => X b i * Wt o i)]
  refine Finset.sum_congr rfl fun t _ => Finset.sum_congr rfl fun r _ => ?_
  have e : inCol t.val r = ⟨512 * t.val + r.val, Cert.LibSumBlocks.block_lt rfl t r⟩ :=
    Fin.ext (inCol_val t.isLt r)
  rw [e]

/-- The accumulator's first value: zero plus the first block's share is that share. -/
theorem first_block (s : ℕ → EReal) : (0 : EReal) + s 0 = ∑ k ∈ Finset.range (0 + 1), s k := by
  rw [zero_add, Finset.sum_range_one]

/-- One more block added to the shares so far. -/
theorem next_block (s : ℕ → EReal) (K : ℕ) :
    (∑ k ∈ Finset.range (K + 1), s k) + s (K + 1) = ∑ k ∈ Finset.range (K + 1 + 1), s k :=
  (Finset.sum_range_succ s (K + 1)).symm

/-! ## The layer as one function of its seven arrays

The arrays come in the order of the programs' arguments: the input `x`, the weight's mean and log-deviation, the
bias' mean and log-deviation, the weight's noise, the bias' noise. -/

/-- The input's rows, entry by entry. -/
def inputRows (x : (⟨2, ![1024, 4096]⟩ : Shape).Idx → EReal) : Fin 1024 → Fin 4096 → EReal := fun b i => x (ix2 b i)

/-- The sampled weight: row `o` holds output feature `o`'s coefficients. -/
def weightRows (wμ ws wε : (⟨2, ![4096, 4096]⟩ : Shape).Idx → EReal) : Fin 4096 → Fin 4096 → EReal :=
  fun o i => sampled (wμ (ix2 o i)) (wε (ix2 o i)) (ws (ix2 o i))

/-- The sampled bias. -/
def biasAt (bμ bs bε : (⟨1, ![4096]⟩ : Shape).Idx → EReal) : Fin 4096 → EReal :=
  fun o => sampled (bμ (ix1 o)) (bε (ix1 o)) (bs (ix1 o))

/-- The layer's result at batch row `b` and feature `o`: the dot product of the input's row with the sampled
    weight's row, plus the sampled bias. -/
def layerAt (x : (⟨2, ![1024, 4096]⟩ : Shape).Idx → EReal) (wμ ws : (⟨2, ![4096, 4096]⟩ : Shape).Idx → EReal)
    (bμ bs : (⟨1, ![4096]⟩ : Shape).Idx → EReal) (wε : (⟨2, ![4096, 4096]⟩ : Shape).Idx → EReal)
    (bε : (⟨1, ![4096]⟩ : Shape).Idx → EReal) (b : Fin 1024) (o : Fin 4096) : EReal :=
  (∑ i : Fin 4096, inputRows x b i * weightRows wμ ws wε o i) + biasAt bμ bs bε o

/-- The layer's result as an array. -/
def layer (x : (⟨2, ![1024, 4096]⟩ : Shape).Idx → EReal) (wμ ws : (⟨2, ![4096, 4096]⟩ : Shape).Idx → EReal)
    (bμ bs : (⟨1, ![4096]⟩ : Shape).Idx → EReal) (wε : (⟨2, ![4096, 4096]⟩ : Shape).Idx → EReal)
    (bε : (⟨1, ![4096]⟩ : Shape).Idx → EReal) : (⟨2, ![1024, 4096]⟩ : Shape).Idx → EReal :=
  fun j => layerAt x wμ ws bμ bs wε bε (j 0) (j 1)

/-- The layer's result with the dot product taken block by block. -/
theorem layerAt_by_blocks (x : (⟨2, ![1024, 4096]⟩ : Shape).Idx → EReal) (wμ ws : (⟨2, ![4096, 4096]⟩ : Shape).Idx → EReal)
    (bμ bs : (⟨1, ![4096]⟩ : Shape).Idx → EReal) (wε : (⟨2, ![4096, 4096]⟩ : Shape).Idx → EReal)
    (bε : (⟨1, ![4096]⟩ : Shape).Idx → EReal) (b : Fin 1024) (o : Fin 4096) :
    layerAt x wμ ws bμ bs wε bε b o
      = (∑ k ∈ Finset.range 8, blockDot (inputRows x) (weightRows wμ ws wε) b o k) + biasAt bμ bs bε o := by
  unfold layerAt
  rw [sum_blockDot]

end Cert.Mfvi

end
-- ==== Proof.Payload.lean ====
import proofs.«175852_j33492154974381_1_alg».proof.Proof.Gen.KernelIdeal.Skeleton
import proofs.«175852_j33492154974381_1_alg».proof.Proof.Spec
import Idealize.ShloMosaic.Lib.ValueIdx
import Idealize.ShloMosaic.Lib.ValueLayout
import Idealize.ShloMosaic.Lib.Pipeline.Value
import Idealize.ShloMosaic.PureOps.Ideal.Laws

/-! # The body's two arithmetic steps, one entry at a time

Over the extended reals a change of float format is the identity and a matrix product into a zero accumulator is a
plain sum, so the accumulation step adds to entry `(p, q)` of the scratch the dot product of row `p` of the input
block with row `q` of the sampled weight block, and the bias step adds to entry `(p, q)` the sampled bias of
column `q`. -/

noncomputable section

open Idealize.ShloMosaic Idealize.ShloMosaic.ValueIdx

namespace Cert.Mfvi.Kernel

open Cert.KernelIdeal Cert.KernelIdeal.Gen Cert.Mfvi

/-! ## The block product's operand indices

The product contracts the second axis of both operands: at output entry `(p, q)` and contraction index `r` it reads
the left operand at `(p, r)` and the right operand at `(q, r)`. -/

theorem left_axis0 (j : S512x1024.Idx) (r : dot_S512x512_S1024x512_S512x1024_1_1_0_0_n_n.contr.Idx) :
    (dot_S512x512_S1024x512_S512x1024_1_1_0_0_n_n.lhsIdx j r 0).val = (j 0).val := by
  unfold DotDims.lhsIdx
  rw [dif_neg (show ¬(0 : Fin S512x512.rank) ∈ dot_S512x512_S1024x512_S512x1024_1_1_0_0_n_n.lhsBatch by decide), dif_pos (show (0 : Fin S512x512.rank) ∈ dot_S512x512_S1024x512_S512x1024_1_1_0_0_n_n.lhsNonContracting by decide)]
  rfl

theorem left_axis1 (j : S512x1024.Idx) (r : dot_S512x512_S1024x512_S512x1024_1_1_0_0_n_n.contr.Idx) :
    (dot_S512x512_S1024x512_S512x1024_1_1_0_0_n_n.lhsIdx j r 1).val = (r ⟨0, by decide⟩).val :=
  dot_S512x512_S1024x512_S512x1024_1_1_0_0_n_n.lhsIdx_val_of_single rfl j r

theorem right_axis0 (j : S512x1024.Idx) (r : dot_S512x512_S1024x512_S512x1024_1_1_0_0_n_n.contr.Idx) :
    (dot_S512x512_S1024x512_S512x1024_1_1_0_0_n_n.rhsIdx j r 0).val = (j 1).val := by
  unfold DotDims.rhsIdx
  rw [dif_neg (show ¬(0 : Fin S1024x512.rank) ∈ dot_S512x512_S1024x512_S512x1024_1_1_0_0_n_n.rhsBatch by decide), dif_pos (show (0 : Fin S1024x512.rank) ∈ dot_S512x512_S1024x512_S512x1024_1_1_0_0_n_n.rhsNonContracting by decide)]
  rfl

theorem right_axis1 (j : S512x1024.Idx) (r : dot_S512x512_S1024x512_S512x1024_1_1_0_0_n_n.contr.Idx) :
    (dot_S512x512_S1024x512_S512x1024_1_1_0_0_n_n.rhsIdx j r 1).val = (r ⟨0, by decide⟩).val :=
  dot_S512x512_S1024x512_S512x1024_1_1_0_0_n_n.rhsIdx_val_of_single rfl j r

/-- The block product into the zero block: entry `(p, q)` is `∑ r, left (p, r) · right (q, r)`. -/
theorem block_product (lhs : FVec Ideal S512x512 .bf16) (rhs : FVec Ideal S1024x512 .bf16) (p : Fin 512) (q : Fin 1024) :
    matmul dot_S512x512_S1024x512_S512x1024_1_1_0_0_n_n none lhs rhs (constant S512x1024 .f32 0x00000000#32) (ix2 p q)
      = ∑ r : Fin 512, lhs (ix2 p r) * rhs (ix2 q r) := by
  simp only [matmul]
  rw [Ideal.matmul_constant_zero_apply, ← Equiv.sum_comp (contrEquiv1 dot_S512x512_S1024x512_S512x1024_1_1_0_0_n_n 512 rfl rfl).symm]
  refine Finset.sum_congr rfl fun k _ => ?_
  have hk := contrEquiv1_symm_val dot_S512x512_S1024x512_S512x1024_1_1_0_0_n_n 512 rfl rfl k
  have el : dot_S512x512_S1024x512_S512x1024_1_1_0_0_n_n.lhsIdx (ix2 p q) ((contrEquiv1 dot_S512x512_S1024x512_S512x1024_1_1_0_0_n_n 512 rfl rfl).symm k) = ix2 p k := funext fun a => Fin.ext (by
    match a with
    | ⟨0, _⟩ => exact left_axis0 _ _
    | ⟨1, _⟩ => exact (left_axis1 _ _).trans hk)
  have er : dot_S512x512_S1024x512_S512x1024_1_1_0_0_n_n.rhsIdx (ix2 p q) ((contrEquiv1 dot_S512x512_S1024x512_S512x1024_1_1_0_0_n_n 512 rfl rfl).symm k) = ix2 q k := funext fun a => Fin.ext (by
    match a with
    | ⟨0, _⟩ => exact right_axis0 _ _
    | ⟨1, _⟩ => exact (right_axis1 _ _).trans hk)
  rw [el, er]

/-- THE ACCUMULATION STEP at entry `(p, q)`: the scratch's entry plus the block's share of the dot product of the
    input's row `p` with the sampled weight's row `q`. -/
theorem accumulate_apply (ws wm wn : FVec Ideal S1024x512 .f32) (xb : FVec Ideal S512x512 .f32)
    (acc : FVec Ideal S512x1024 .f32) (p : Fin 512) (q : Fin 1024) :
    k0_pay2 (F := Ideal) ws wm wn xb acc (ix2 p q)
      = acc (ix2 p q) + ∑ r : Fin 512, xb (ix2 p r) * sampled (wm (ix2 q r)) (wn (ix2 q r)) (ws (ix2 q r)) := by
  unfold k0_pay2
  rw [shapeCast_self, addf_apply, block_product]
  rfl

/-- THE BIAS STEP at entry `(p, q)`: the scratch's entry plus the sampled bias of column `q`. -/
theorem bias_apply (bs bm bn : FVec Ideal S1x1024 .f32) (acc : FVec Ideal S512x1024 .f32) (p : Fin 512) (q : Fin 1024) :
    k0_pay3 (F := Ideal) bs bm bn acc (ix2 p q)
      = acc (ix2 p q) + sampled (bm (ix2 (0 : Fin 1) q)) (bn (ix2 (0 : Fin 1) q)) (bs (ix2 (0 : Fin 1) q)) := by
  unfold k0_pay3
  rw [addf_apply, broadcastTo_1b_ab_apply]
  simp only [shapeCast_self]
  rfl

/-- The cleared scratch is zero everywhere. -/
theorem cleared_apply (j : S512x1024.Idx) : k0_pay1 (F := Ideal) j = 0 := by
  unfold k0_pay1
  rw [shapeCast_self]
  exact Ideal.ofBits_zero_f32

end Cert.Mfvi.Kernel

end
-- ==== Proof.Blocks.lean ====
import proofs.«175852_j33492154974381_1_alg».proof.Proof.Gen.KernelIdeal.Frame
import proofs.«175852_j33492154974381_1_alg».proof.Proof.Spec
import Idealize.ShloMosaic.Lib.ValueIdx
import Idealize.ShloMosaic.Lib.ValueLayout
import Idealize.ShloMosaic.Lib.Pipeline.Value
import Idealize.ShloMosaic.Lib.StableHlo.Run

/-! # The blocks a grid point reads

The grid is 2 × 4 × 8: point `t` (in row-major order) has batch block `t / 32`, feature block `t / 8 % 4` and
contraction block `t % 8`. At that point the pipeline hands the body

* rows `512 · (t / 32) + p`, columns `512 · (t % 8) + r` of the input;
* rows `1024 · (t / 8 % 4) + q`, columns `512 · (t % 8) + r` of the weight's mean, log-deviation and noise;
* columns `1024 · (t / 8 % 4) + q` of the bias' mean, log-deviation and noise, each first reshaped from a vector
  to a one-row matrix by the program's host operations.

Every statement is for any float instance: it is only about which entry is read. -/

noncomputable section

open Idealize.ShloMosaic Idealize.ShloMosaic.TcCoe Idealize.ShloMosaic.ValueIdx Idealize.SL.Sem

namespace Cert.Mfvi.Kernel

open Cert.KernelIdeal Cert.KernelIdeal.Gen Cert.Mfvi

variable {F : FTy → Type} [FloatOps F]
variable (m : (ℓ : Loc nD τ sig) → Buf (Elt F) ℓ)

/-! ## The index maps over the grid, decided once -/

theorem input_block_index : ∀ t : Fin cfg0.N, win0_0.index t 0 = t.val / 32 ∧ win0_0.index t 1 = t.val % 8 :=
  (by decide +kernel : ∀ t : Fin grid0.N, win0_0.index t 0 = t.val / 32 ∧ win0_0.index t 1 = t.val % 8)

theorem weight_block_index : ∀ t : Fin cfg0.N,
    (win0_1.index t 0 = t.val / 8 % 4 ∧ win0_1.index t 1 = t.val % 8)
    ∧ (win0_2.index t 0 = t.val / 8 % 4 ∧ win0_2.index t 1 = t.val % 8)
    ∧ (win0_3.index t 0 = t.val / 8 % 4 ∧ win0_3.index t 1 = t.val % 8) :=
  (by decide +kernel : ∀ t : Fin grid0.N,
    (win0_1.index t 0 = t.val / 8 % 4 ∧ win0_1.index t 1 = t.val % 8)
    ∧ (win0_2.index t 0 = t.val / 8 % 4 ∧ win0_2.index t 1 = t.val % 8)
    ∧ (win0_3.index t 0 = t.val / 8 % 4 ∧ win0_3.index t 1 = t.val % 8))

theorem bias_block_index : ∀ t : Fin cfg0.N,
    (win0_4.index t 0 = 0 ∧ win0_4.index t 1 = t.val / 8 % 4)
    ∧ (win0_5.index t 0 = 0 ∧ win0_5.index t 1 = t.val / 8 % 4)
    ∧ (win0_6.index t 0 = 0 ∧ win0_6.index t 1 = t.val / 8 % 4) :=
  (by decide +kernel : ∀ t : Fin grid0.N,
    (win0_4.index t 0 = 0 ∧ win0_4.index t 1 = t.val / 8 % 4)
    ∧ (win0_5.index t 0 = 0 ∧ win0_5.index t 1 = t.val / 8 % 4)
    ∧ (win0_6.index t 0 = 0 ∧ win0_6.index t 1 = t.val / 8 % 4))

theorem output_block_index : ∀ t : Fin cfg0.N, win0_7.index t 0 = t.val / 32 ∧ win0_7.index t 1 = t.val / 8 % 4 :=
  (by decide +kernel : ∀ t : Fin grid0.N, win0_7.index t 0 = t.val / 32 ∧ win0_7.index t 1 = t.val / 8 % 4)

/-- A grid point's three coordinates are in range. -/
theorem coords_lt (t : Fin cfg0.N) : t.val / 32 < 2 ∧ t.val / 8 % 4 < 4 ∧ t.val % 8 < 8 := by
  have h : t.val < 64 := lt_of_lt_of_eq t.isLt (show cfg0.N = 64 from N_0)
  omega

/-! ## The blocks, at their literal types -/

abbrev inputBlock (c : Dev nD) (t : Fin cfg0.N) : Vec F S512x512 .f32 := iblk m c 0 t
abbrev meanBlock (c : Dev nD) (t : Fin cfg0.N) : Vec F S1024x512 .f32 := iblk m c 1 t
abbrev logstdBlock (c : Dev nD) (t : Fin cfg0.N) : Vec F S1024x512 .f32 := iblk m c 2 t
abbrev noiseBlock (c : Dev nD) (t : Fin cfg0.N) : Vec F S1024x512 .f32 := iblk m c 3 t
abbrev biasMeanBlock (c : Dev nD) (t : Fin cfg0.N) : Vec F S1x1024 .f32 := iblk m c 4 t
abbrev biasLogstdBlock (c : Dev nD) (t : Fin cfg0.N) : Vec F S1x1024 .f32 := iblk m c 5 t
abbrev biasNoiseBlock (c : Dev nD) (t : Fin cfg0.N) : Vec F S1x1024 .f32 := iblk m c 6 t

/-! ## The matrix blocks -/

theorem inputBlock_apply (c : Dev nD) (t : Fin cfg0.N) (p r : Fin 512) :
    inputBlock m c t (ix2 p r)
      = m ((c : Thread nD τ).loc main_arg0) (ix2 (outRow (t.val / 32) p) (inCol (t.val % 8) r)) := by
  obtain ⟨hI, _, hK⟩ := coords_lt t
  obtain ⟨e0, e1⟩ := input_block_index t
  show iblk m c 0 t (ix2 p r) = _
  unfold iblk
  rw [View.read_apply]
  show V m c main_arg0 _ = _
  rw [V_main_arg0]
  refine congrArg _ (funext fun a => Fin.ext ?_)
  match a with
  | ⟨0, _⟩ =>
    show win0_0.index t 0 * 512 + 1 * p.val = (outRow (t.val / 32) p).val
    rw [e0, outRow_val hI]; omega
  | ⟨1, _⟩ =>
    show win0_0.index t 1 * 512 + 1 * r.val = (inCol (t.val % 8) r).val
    rw [e1, inCol_val hK]; omega

theorem meanBlock_apply (c : Dev nD) (t : Fin cfg0.N) (q : Fin 1024) (r : Fin 512) :
    meanBlock m c t (ix2 q r)
      = m ((c : Thread nD τ).loc main_arg1) (ix2 (outCol (t.val / 8 % 4) q) (inCol (t.val % 8) r)) := by
  obtain ⟨_, hJ, hK⟩ := coords_lt t
  obtain ⟨⟨e0, e1⟩, _, _⟩ := weight_block_index t
  show iblk m c 1 t (ix2 q r) = _
  unfold iblk
  rw [View.read_apply]
  show V m c main_arg1 _ = _
  rw [V_main_arg1]
  refine congrArg _ (funext fun a => Fin.ext ?_)
  match a with
  | ⟨0, _⟩ =>
    show win0_1.index t 0 * 1024 + 1 * q.val = (outCol (t.val / 8 % 4) q).val
    rw [e0, outCol_val hJ]; omega
  | ⟨1, _⟩ =>
    show win0_1.index t 1 * 512 + 1 * r.val = (inCol (t.val % 8) r).val
    rw [e1, inCol_val hK]; omega

theorem logstdBlock_apply (c : Dev nD) (t : Fin cfg0.N) (q : Fin 1024) (r : Fin 512) :
    logstdBlock m c t (ix2 q r)
      = m ((c : Thread nD τ).loc main_arg2) (ix2 (outCol (t.val / 8 % 4) q) (inCol (t.val % 8) r)) := by
  obtain ⟨_, hJ, hK⟩ := coords_lt t
  obtain ⟨_, ⟨e0, e1⟩, _⟩ := weight_block_index t
  show iblk m c 2 t (ix2 q r) = _
  unfold iblk
  rw [View.read_apply]
  show V m c main_arg2 _ = _
  rw [V_main_arg2]
  refine congrArg _ (funext fun a => Fin.ext ?_)
  match a with
  | ⟨0, _⟩ =>
    show win0_2.index t 0 * 1024 + 1 * q.val = (outCol (t.val / 8 % 4) q).val
    rw [e0, outCol_val hJ]; omega
  | ⟨1, _⟩ =>
    show win0_2.index t 1 * 512 + 1 * r.val = (inCol (t.val % 8) r).val
    rw [e1, inCol_val hK]; omega

theorem noiseBlock_apply (c : Dev nD) (t : Fin cfg0.N) (q : Fin 1024) (r : Fin 512) :
    noiseBlock m c t (ix2 q r)
      = m ((c : Thread nD τ).loc main_arg5) (ix2 (outCol (t.val / 8 % 4) q) (inCol (t.val % 8) r)) := by
  obtain ⟨_, hJ, hK⟩ := coords_lt t
  obtain ⟨_, _, e0, e1⟩ := weight_block_index t
  show iblk m c 3 t (ix2 q r) = _
  unfold iblk
  rw [View.read_apply]
  show V m c main_arg5 _ = _
  rw [V_main_arg5]
  refine congrArg _ (funext fun a => Fin.ext ?_)
  match a with
  | ⟨0, _⟩ =>
    show win0_3.index t 0 * 1024 + 1 * q.val = (outCol (t.val / 8 % 4) q).val
    rw [e0, outCol_val hJ]; omega
  | ⟨1, _⟩ =>
    show win0_3.index t 1 * 512 + 1 * r.val = (inCol (t.val % 8) r).val
    rw [e1, inCol_val hK]; omega

/-! ## The bias blocks: one-row matrices the host operations made of the three vectors -/

theorem biasMean_row (c : Dev nD) :
    (V m c main_v0 : S1x4096.Idx → Elt F .f32)
      = shapeCast S1x4096 (m ((c : Thread nD τ).loc main_arg3)) shapeCasts_S4096_S1x4096 := by
  dsimp only [V, hostOps0]; after_results; rfl

theorem biasLogstd_row (c : Dev nD) :
    (V m c main_v1 : S1x4096.Idx → Elt F .f32)
      = shapeCast S1x4096 (m ((c : Thread nD τ).loc main_arg4)) shapeCasts_S4096_S1x4096 := by
  dsimp only [V, hostOps0]; after_results; rfl

theorem biasNoise_row (c : Dev nD) :
    (V m c main_v2 : S1x4096.Idx → Elt F .f32)
      = shapeCast S1x4096 (m ((c : Thread nD τ).loc main_arg6)) shapeCasts_S4096_S1x4096 := by
  dsimp only [V, hostOps0]; after_results; rfl

theorem biasMeanBlock_apply (c : Dev nD) (t : Fin cfg0.N) (q : Fin 1024) :
    biasMeanBlock m c t (ix2 (0 : Fin 1) q)
      = m ((c : Thread nD τ).loc main_arg3) (ix1 (outCol (t.val / 8 % 4) q)) := by
  obtain ⟨_, hJ, _⟩ := coords_lt t
  obtain ⟨⟨e0, e1⟩, _, _⟩ := bias_block_index t
  show iblk m c 4 t (ix2 (0 : Fin 1) q) = _
  unfold iblk
  rw [View.read_apply]
  show V m c main_v0 _ = _
  rw [biasMean_row, ← shapeCast_a_1a_apply (m ((c : Thread nD τ).loc main_arg3)) shapeCasts_S4096_S1x4096 (0 : Fin 1)]
  refine congrArg _ (funext fun a => Fin.ext ?_)
  match a with
  | ⟨0, _⟩ =>
    show win0_4.index t 0 * 1 + 1 * 0 = 0
    rw [e0]
  | ⟨1, _⟩ =>
    show win0_4.index t 1 * 1024 + 1 * q.val = (outCol (t.val / 8 % 4) q).val
    rw [e1, outCol_val hJ]; omega

theorem biasLogstdBlock_apply (c : Dev nD) (t : Fin cfg0.N) (q : Fin 1024) :
    biasLogstdBlock m c t (ix2 (0 : Fin 1) q)
      = m ((c : Thread nD τ).loc main_arg4) (ix1 (outCol (t.val / 8 % 4) q)) := by
  obtain ⟨_, hJ, _⟩ := coords_lt t
  obtain ⟨_, ⟨e0, e1⟩, _⟩ := bias_block_index t
  show iblk m c 5 t (ix2 (0 : Fin 1) q) = _
  unfold iblk
  rw [View.read_apply]
  show V m c main_v1 _ = _
  rw [biasLogstd_row, ← shapeCast_a_1a_apply (m ((c : Thread nD τ).loc main_arg4)) shapeCasts_S4096_S1x4096 (0 : Fin 1)]
  refine congrArg _ (funext fun a => Fin.ext ?_)
  match a with
  | ⟨0, _⟩ =>
    show win0_5.index t 0 * 1 + 1 * 0 = 0
    rw [e0]
  | ⟨1, _⟩ =>
    show win0_5.index t 1 * 1024 + 1 * q.val = (outCol (t.val / 8 % 4) q).val
    rw [e1, outCol_val hJ]; omega

theorem biasNoiseBlock_apply (c : Dev nD) (t : Fin cfg0.N) (q : Fin 1024) :
    biasNoiseBlock m c t (ix2 (0 : Fin 1) q)
      = m ((c : Thread nD τ).loc main_arg6) (ix1 (outCol (t.val / 8 % 4) q)) := by
  obtain ⟨_, hJ, _⟩ := coords_lt t
  obtain ⟨_, _, e0, e1⟩ := bias_block_index t
  show iblk m c 6 t (ix2 (0 : Fin 1) q) = _
  unfold iblk
  rw [View.read_apply]
  show V m c main_v2 _ = _
  rw [biasNoise_row, ← shapeCast_a_1a_apply (m ((c : Thread nD τ).loc main_arg6)) shapeCasts_S4096_S1x4096 (0 : Fin 1)]
  refine congrArg _ (funext fun a => Fin.ext ?_)
  match a with
  | ⟨0, _⟩ =>
    show win0_6.index t 0 * 1 + 1 * 0 = 0
    rw [e0]
  | ⟨1, _⟩ =>
    show win0_6.index t 1 * 1024 + 1 * q.val = (outCol (t.val / 8 % 4) q).val
    rw [e1, outCol_val hJ]; omega

end Cert.Mfvi.Kernel

end
-- ==== Proof.Accumulate.lean ====
import proofs.«175852_j33492154974381_1_alg».proof.Proof.Pieces
import proofs.«175852_j33492154974381_1_alg».proof.Proof.Payload
import proofs.«175852_j33492154974381_1_alg».proof.Proof.Blocks

/-! # The running sum across the grid

Within one (batch block, feature block) pair the eight contraction blocks are visited in order, and the scratch
carries the sum so far: after the point with contraction block `K` its entry `(p, q)` is the sum, over the blocks
`0 … K`, of each block's share of the dot product of the input's row `512·I + p` with the sampled weight's row
`1024·J + q`. The first block starts from the cleared scratch; every later one adds to what the point before left.
At the last block the output block receives that sum plus the sampled bias, which is the layer's result there. -/

noncomputable section

open Idealize.ShloMosaic Idealize.ShloMosaic.TcCoe Idealize.ShloMosaic.ValueIdx Idealize.SL.Sem

namespace Cert.Mfvi.Kernel

open Cert.KernelIdeal Cert.KernelIdeal.Gen Cert.Mfvi

variable (m : (ℓ : Loc nD τ sig) → Buf (Elt Ideal) ℓ)

/-- The input's rows on core `c`. -/
abbrev X (c : Dev nD) : Fin 1024 → Fin 4096 → EReal := inputRows (m ((c : Thread nD τ).loc main_arg0))

/-- The sampled weight's rows on core `c`. -/
abbrev Wt (c : Dev nD) : Fin 4096 → Fin 4096 → EReal :=
  weightRows (m ((c : Thread nD τ).loc main_arg1)) (m ((c : Thread nD τ).loc main_arg2)) (m ((c : Thread nD τ).loc main_arg5))

/-- The sampled bias on core `c`. -/
abbrev β (c : Dev nD) : Fin 4096 → EReal :=
  biasAt (m ((c : Thread nD τ).loc main_arg3)) (m ((c : Thread nD τ).loc main_arg4)) (m ((c : Thread nD τ).loc main_arg6))

/-- ONE ACCUMULATION at point `t`, on the point's own blocks: entry `(p, q)` gains contraction block `t % 8`'s share
    of the dot product of the rows that the point's batch and feature blocks place at `p` and `q`. -/
theorem accumulate_at (c : Dev nD) (t : Fin cfg0.N) (acc : FVec Ideal S512x1024 .f32) (p : Fin 512) (q : Fin 1024) :
    k0_pay2 (F := Ideal) (logstdBlock m c t) (meanBlock m c t) (noiseBlock m c t) (inputBlock m c t) acc (ix2 p q)
      = acc (ix2 p q)
        + blockDot (X m c) (Wt m c) (outRow (t.val / 32) p) (outCol (t.val / 8 % 4) q) (t.val % 8) := by
  rw [accumulate_apply]
  refine congrArg (acc (ix2 p q) + ·) (Finset.sum_congr rfl fun r _ => ?_)
  rw [inputBlock_apply, meanBlock_apply, noiseBlock_apply, logstdBlock_apply]
  rfl

/-- THE FIRST CONTRACTION BLOCK of a pair: the scratch holds that block's share alone. -/
theorem scratch_at_first (c : Dev nD) (t : Fin cfg0.N) (h0 : t.val % 8 = 0) (p : Fin 512) (q : Fin 1024) :
    (outsAt0 m c t.val t.isLt).2 (ix2 p q)
      = ∑ k ∈ Finset.range (t.val % 8 + 1),
          blockDot (X m c) (Wt m c) (outRow (t.val / 32) p) (outCol (t.val / 8 % 4) q) k := by
  have h1 : ¬t.val % 8 = 7 := by omega
  rw [outsAt0_A m c t h0 h1]
  dsimp only
  refine (congrFun (scratch_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t)
    ((hcond0_0 t).mpr h0) (fun h => h1 ((hcond0_1 t).mp h))) (ix2 p q)).trans ?_
  refine (accumulate_at m c t (k0_pay1 (F := Ideal)) p q).trans ?_
  rw [cleared_apply, h0]
  exact first_block (fun k => blockDot (X m c) (Wt m c) (outRow (t.val / 32) p) (outCol (t.val / 8 % 4) q) k)

/-- THE SCRATCH AFTER EVERY POINT: the shares of the contraction blocks visited so far in the point's pair. -/
theorem scratch_after (c : Dev nD) : ∀ (n : ℕ) (h : n < cfg0.N) (p : Fin 512) (q : Fin 1024),
    (outsAt0 m c n h).2 (ix2 p q)
      = ∑ k ∈ Finset.range (n % 8 + 1), blockDot (X m c) (Wt m c) (outRow (n / 32) p) (outCol (n / 8 % 4) q) k := by
  intro n
  induction n with
  | zero => exact fun h p q => scratch_at_first m c ⟨0, h⟩ rfl p q
  | succ n ih =>
    intro h p q
    by_cases h0 : (n + 1) % 8 = 0
    · exact scratch_at_first m c ⟨n + 1, h⟩ h0 p q
    · have hN : n + 1 < 64 := lt_of_lt_of_eq h (show cfg0.N = 64 from N_0)
      have before := ih (Nat.lt_of_succ_lt h) p q
      have e1 : (n + 1) / 32 = n / 32 := by omega
      have e2 : (n + 1) / 8 % 4 = n / 8 % 4 := by omega
      have e3 : (n + 1) % 8 = n % 8 + 1 := by omega
      let t : Fin cfg0.N := ⟨n + 1, h⟩
      by_cases h1 : (n + 1) % 8 = 7
      · rw [outsAt0_C m c t h0 h1]
        dsimp only
        refine (congrFun (scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t)
          (outsAt0 m c (t.val - 1) (Nat.lt_of_le_of_lt (Nat.sub_le _ _) t.isLt)).2
          (fun h => h0 ((hcond0_0 t).mp h)) ((hcond0_1 t).mpr h1)) (ix2 p q)).trans ?_
        refine (accumulate_at m c t _ p q).trans ?_
        show (outsAt0 m c n _).2 (ix2 p q) + blockDot (X m c) (Wt m c) (outRow ((n + 1) / 32) p) (outCol ((n + 1) / 8 % 4) q) ((n + 1) % 8) = _
        rw [before, e1, e2, e3]
        exact next_block _ _
      · rw [outsAt0_B m c t h0 h1]
        dsimp only
        refine (congrFun (scratch_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t)
          (outsAt0 m c (t.val - 1) (Nat.lt_of_le_of_lt (Nat.sub_le _ _) t.isLt)).2
          (fun h => h0 ((hcond0_0 t).mp h)) (fun h => h1 ((hcond0_1 t).mp h))) (ix2 p q)).trans ?_
        refine (accumulate_at m c t _ p q).trans ?_
        show (outsAt0 m c n _).2 (ix2 p q) + blockDot (X m c) (Wt m c) (outRow ((n + 1) / 32) p) (outCol ((n + 1) / 8 % 4) q) ((n + 1) % 8) = _
        rw [before, e1, e2, e3]
        exact next_block _ _

/-- THE OUTPUT BLOCK AT THE LAST CONTRACTION BLOCK of a pair: the layer's result on the pair's rows and features. -/
theorem output_at_last (c : Dev nD) (t : Fin cfg0.N) (h7 : t.val % 8 = 7) (p : Fin 512) (q : Fin 1024) :
    (outsAt0 m c t.val t.isLt).1 (ix2 p q)
      = layerAt (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (outRow (t.val / 32) p) (outCol (t.val / 8 % 4) q) := by
  have h0 : ¬t.val % 8 = 0 := by omega
  have scratch := scratch_after m c t.val t.isLt p q
  rw [outsAt0_C m c t h0 h7] at scratch ⊢
  dsimp only at scratch ⊢
  rw [congrFun (scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t)
    (outsAt0 m c (t.val - 1) (Nat.lt_of_le_of_lt (Nat.sub_le _ _) t.isLt)).2
    (fun h => h0 ((hcond0_0 t).mp h)) ((hcond0_1 t).mpr h7)) (ix2 p q)] at scratch
  refine (congrFun (output_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t)
    (outsAt0 m c (t.val - 1) (Nat.lt_of_le_of_lt (Nat.sub_le _ _) t.isLt)).2
    (fun h => h0 ((hcond0_0 t).mp h)) ((hcond0_1 t).mpr h7)) (ix2 p q)).trans ?_
  refine (bias_apply (biasLogstdBlock m c t) (biasMeanBlock m c t) (biasNoiseBlock m c t) _ p q).trans ?_
  rw [scratch, biasMeanBlock_apply, biasNoiseBlock_apply, biasLogstdBlock_apply, layerAt_by_blocks, h7]
  rfl

end Cert.Mfvi.Kernel

end
-- ==== Proof.Final.lean ====
import proofs.«175852_j33492154974381_1_alg».proof.Proof.Accumulate
import proofs.«175852_j33492154974381_1_alg».proof.Proof.Gen.KernelIdeal.Value

/-! # From the output blocks to the output array

The output array is written back once per (batch block, feature block) pair, at the pair's last contraction block,
with the 512 × 1024 block that the running sum plus the bias has filled. The eight pairs' blocks tile the
1024 × 4096 array, and on each the contents are the layer's result at the block's rows and features: so after the
run the whole array is the layer's result. -/

noncomputable section

open Idealize.ShloMosaic Idealize.ShloMosaic.TcCoe Idealize.ShloMosaic.ValueIdx Idealize.SL.Sem
open Idealize.ShloMosaic.Pipeline (Dat)

namespace Cert.Mfvi.Kernel

open Cert.KernelIdeal Cert.KernelIdeal.Gen Cert.Mfvi

variable (m : (ℓ : Loc nD τ sig) → Buf (Elt Ideal) ℓ) (ρ : Dev nD → PrngReg)

/-- The layer's result of core `c`'s seven argument arrays. -/
abbrev result (c : Dev nD) : S1024x4096.Idx → EReal :=
  layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- WHAT A WRITE-BACK WRITES: at a point where the output window is written back (a pair's last contraction block),
    its block read out of the layer's result. -/
theorem written_back (c : Dev nD) (t : Fin cfg0.N) (hf : (cfg0.win 7).flush t = true) :
    (dats m 0 c).flushed 7 t = ((cfg0.win 7).blk t).view.read (Elt Ideal) (result m c) := by
  have h7 : t.val % 8 = 7 := (flush0_7 t).mp hf
  obtain ⟨hI, hJ, _⟩ := coords_lt t
  obtain ⟨e0, e1⟩ := output_block_index t
  rw [Cert.KernelIdeal.Value.flushed7]
  funext y
  obtain ⟨p, q, rfl⟩ : ∃ (p : Fin 512) (q : Fin 1024), y = ix2 p q := ⟨y 0, y 1, eq_ix2 y⟩
  show (outsAt0 m c t.val t.isLt).1 (ix2 p q) = result m c (((cfg0.win 7).blk t).view.emb (ix2 p q))
  rw [output_at_last m c t h7 p q]
  show _ = layerAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    ((((cfg0.win 7).blk t).view.emb (ix2 p q)) 0) ((((cfg0.win 7).blk t).view.emb (ix2 p q)) 1)
  congr 1
  · apply Fin.ext
    show (outRow (t.val / 32) p).val = win0_7.index t 0 * 512 + 1 * p.val
    rw [e0, outRow_val hI]; omega
  · apply Fin.ext
    show (outCol (t.val / 8 % 4) q).val = win0_7.index t 1 * 1024 + 1 * q.val
    rw [e1, outCol_val hJ]; omega

/-- THE BLOCKS TILE THE ARRAY: entry `(b, o)` lies in the block written back at the last contraction block of the
    pair (`b / 512`, `o / 1024`). -/
theorem covered (i : S1024x4096.Idx) :
    ∃ t : Fin cfg0.N, (cfg0.win 7).flush t = true ∧ i ∈ ((cfg0.win 7).blk t).view.set := by
  have hb : (i 0).val < 1024 := (i 0).isLt
  have ho : (i 1).val < 4096 := (i 1).isLt
  have hN : cfg0.N = 64 := N_0
  let t : Fin cfg0.N := ⟨32 * ((i 0).val / 512) + 8 * ((i 1).val / 1024) + 7, by rw [hN]; omega⟩
  have ht : t.val = 32 * ((i 0).val / 512) + 8 * ((i 1).val / 1024) + 7 := rfl
  obtain ⟨e0, e1⟩ := output_block_index t
  refine ⟨t, (flush0_7 t).mpr (by rw [ht]; omega), ?_⟩
  show i ∈ ((View.whole main_v3).slice (win0_7.rect t)).set
  rw [View.set_slice_whole, Rect.mem_set_unit]
  intro a
  match a with
  | ⟨0, _⟩ =>
    show win0_7.index t 0 * 512 ≤ (i 0).val ∧ (i 0).val < win0_7.index t 0 * 512 + 512
    rw [e0, ht]; omega
  | ⟨1, _⟩ =>
    show win0_7.index t 1 * 1024 ≤ (i 1).val ∧ (i 1).val < win0_7.index t 1 * 1024 + 1024
    rw [e1, ht]; omega

/-- THE OUTPUT ARRAY AFTER THE RUN is the layer's result. -/
theorem output_array (c : Dev nD) : (dats m 0 c).arrAt 7 cfg0.N = result m c :=
  (dats m 0 c).arrAt_eq_of_cover 7 (result m c) (written_back m c) (covered)

/-- THE KERNEL'S RUN, READ: every weakly fair execution terminates with the result array at the layer's result of the
    arguments and the arguments as launched. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (output_array m c), (h c).2⟩)
    (Cert.KernelIdeal.Value.run_blocks m ρ)

end Cert.Mfvi.Kernel

end
-- ==== Proof.Reference.lean ====
import proofs.«175852_j33492154974381_1_alg».proof.Proof.Gen.ReferenceIdeal.Read
import proofs.«175852_j33492154974381_1_alg».proof.Proof.Spec

/-! # The reference computes the layer

The reference program exponentiates the two log-deviation arrays, clamps them from below by the floor, forms
`mean + noise · deviation` for the weight and for the bias, contracts the input with the weight over the weight's
second axis, and adds the bias broadcast over the batch. Read one entry at a time, over the extended reals, that
is the layer's defining formula: nothing but the names of the indices differs. -/

noncomputable section

open Idealize.ShloMosaic Idealize.ShloMosaic.ValueIdx

namespace Cert.Mfvi.Reference

open Cert.ReferenceIdeal Cert.ReferenceIdeal.Read

/-- The contraction reads the input at (the entry's row, `k`). -/
theorem input_index (j : S1024x4096.Idx) (k : Fin 4096) : lidx_main_v10 j k = ix2 (j 0) k :=
  funext fun a => Fin.ext (by match a with | ⟨0, _⟩ => rfl | ⟨1, _⟩ => rfl)

/-- The contraction reads the weight at (the entry's feature, `k`). -/
theorem weight_index (j : S1024x4096.Idx) (k : Fin 4096) : ridx_main_v10 j k = ix2 (j 1) k :=
  funext fun a => Fin.ext (by match a with | ⟨0, _⟩ => rfl | ⟨1, _⟩ => rfl)

/-- The two broadcasts of the bias read it at the entry's feature. -/
theorem bias_index (j : S1024x4096.Idx) : idx_main_v11 (idx_main_v12 j) = ix1 (j 1) :=
  funext fun a => Fin.ext (by match a with | ⟨0, _⟩ => rfl)

/-- The reference's result is the layer of its seven arguments. -/
theorem result_is_layer (x : (⟨S1024x4096, .f32⟩ : BufTy).Contents (Elt Ideal))
    (wμ ws : (⟨S4096x4096, .f32⟩ : BufTy).Contents (Elt Ideal)) (bμ bs : (⟨S4096, .f32⟩ : BufTy).Contents (Elt Ideal))
    (wε : (⟨S4096x4096, .f32⟩ : BufTy).Contents (Elt Ideal)) (bε : (⟨S4096, .f32⟩ : BufTy).Contents (Elt Ideal)) :
    val_main_v13 (F := Ideal) x wμ ws bμ bs wε bε = Cert.Mfvi.layer x wμ ws bμ bs wε bε := by
  funext j
  rw [val_main_v13_apply, val_main_v10_apply, val_main_v12_apply, val_main_v11_apply, val_main_v9_apply,
    val_main_v8_apply, val_main_v5_apply, val_main_v3_apply, val_main_v4_apply, val_main_cst_0_apply]
  simp only [val_main_v7_apply, val_main_v6_apply, val_main_v2_apply, val_main_v0_apply, val_main_v1_apply,
    val_main_cst_apply, input_index, weight_index, bias_index, Ideal.addf_def, Ideal.mulf_def, Ideal.maximumf_def,
    Ideal.hostUnary_exp_def, Ideal.ofBits_def]
  rfl

end Cert.Mfvi.Reference

end
-- ==== Proof.lean ====
/-
  A linear layer whose weight and bias are drawn around a mean: for a batch row `b` and an output feature `o`,

    out b o = (∑ i, x b i · W o i) + β o,
    W o i   = weight_mean o i + noise_w o i · max (exp (weight_std_param o i)) floor,
    β o     = bias_mean o     + noise_b o   · max (exp (bias_std_param o))     floor,

  with `floor` the f32 word of 1e-5, the same word in both programs.

  The reference forms `W` and `β` whole, contracts `x` with `W` over the 4096 input features in one product and adds
  `β` along the batch. The kernel walks a 2 × 4 × 8 grid — batch blocks of 512 rows, feature blocks of 1024, and the
  4096 contracted columns in 8 blocks of 512 —, forms each 1024 × 512 block of `W` on the fly, and keeps in a scratch
  block the sum of the blocks' products so far: cleared at a pair's first contraction block, increased by one
  product per point, and at the pair's last contraction block written out with the bias added.

  Over the extended reals a change of float format is the identity and a matrix product is a plain sum, so after
  the point with contraction block `K` the scratch's entry is the sum of the blocks `0 … K`'s shares of the dot product
  (by induction along the grid), the eight shares together are the whole dot product (the 4096 columns are the 8
  blocks of 512), and the eight pairs' output blocks tile the array: the kernel's result array is `out`. The
  reference's operations read entry by entry are `out`'s formula. The only law used is that addition of extended
  reals is commutative and associative, which needs no finiteness: the precondition is not opened.

  The three frames are the generated ones (the reference's is its run with the result dropped); the idealization
  rewrote nothing, so `preserves` is `True`.
-/
import proofs.«175852_j33492154974381_1_alg».proof.Defs
import proofs.«175852_j33492154974381_1_alg».proof.Proof.Gen.Kernel
import proofs.«175852_j33492154974381_1_alg».proof.Proof.Gen.Kernel.Skeleton
import proofs.«175852_j33492154974381_1_alg».proof.Proof.Gen.Kernel.Launch
import proofs.«175852_j33492154974381_1_alg».proof.Proof.Gen.Kernel.Points
import proofs.«175852_j33492154974381_1_alg».proof.Proof.Gen.Kernel.Frame
import proofs.«175852_j33492154974381_1_alg».proof.Proof.Gen.KernelIdeal
import proofs.«175852_j33492154974381_1_alg».proof.Proof.Gen.KernelIdeal.Skeleton
import proofs.«175852_j33492154974381_1_alg».proof.Proof.Gen.KernelIdeal.Launch
import proofs.«175852_j33492154974381_1_alg».proof.Proof.Gen.KernelIdeal.Points
import proofs.«175852_j33492154974381_1_alg».proof.Proof.Gen.KernelIdeal.Frame
import proofs.«175852_j33492154974381_1_alg».proof.Proof.Gen.ReferenceIdeal
import proofs.«175852_j33492154974381_1_alg».proof.Proof.Gen.Pre_finite_inputs
import proofs.«175852_j33492154974381_1_alg».proof.Proof.Gen.KernelIdeal.Value
import proofs.«175852_j33492154974381_1_alg».proof.Proof.Gen.ReferenceIdeal.Run
import proofs.«175852_j33492154974381_1_alg».proof.Proof.Gen.ReferenceIdeal.Read
import proofs.«175852_j33492154974381_1_alg».proof.Proof.Final
import proofs.«175852_j33492154974381_1_alg».proof.Proof.Reference
import Idealize.ShloMosaic.Adequacy
import Idealize.ShloMosaic.Init

noncomputable section

namespace Cert.Proof

open Idealize.ShloMosaic Idealize.SL.Sem

/-- The kernel as printed runs, faults nowhere and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, from arguments that agree, the kernel's result array and the reference's both end at the
    layer's result of those arguments. -/
theorem algebraic : Cert.algebraic_KernelIdeal_ReferenceIdeal := by
  intro m ρ m' ρ' _ hagree
  refine ⟨fun c => Cert.Mfvi.Kernel.result m c, Cert.Mfvi.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v13_eq, Cert.Mfvi.Reference.result_is_layer, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
